-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S32x1048576 : Shape := ⟨2, ![32, 1048576]⟩
abbrev S1x1048576 : Shape := ⟨2, ![1, 1048576]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S1x1048576 : S_.BroadcastsInDim S1x1048576 (![] : Fin 0 → Fin S1x1048576.rank)
  reducesTo_S1x1048576_S_d0_1 : S1x1048576.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S64x8192 .f32) (main_arg1 : IVec S32x1048576 32) (main_arg2 : FVec F S1x1048576 .f32) (main_arg3 : FVec F S1x1048576 .f32) (main_arg4 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S1x1048576 .f32 := Host.absf main_arg2
  let main_cst_0 : FVec F S_ .f32 := constant S_ .f32 0x7F800000#32
  let main_v5 : FVec F S1x1048576 .f32 := broadcastInDim S1x1048576 ![] bcast_S_S1x1048576 main_cst_0
  let main_v6 : IVec S1x1048576 1 := cmpf .olt main_v4 main_v5
  let main_c_1 : IVec S_ 1 := constantI S_ 1 1#1
  let main_v7 : IVec S_ 1 := (fun x v => Host.reduce IntOp.andi x v reducesTo_S1x1048576_S_d0_1 h_S_) main_v6 main_c_1
  let main_v8 : IVec S_ 1 := andi main_v3 main_v7
  let main_v9 : FVec F S1x1048576 .f32 := Host.absf main_arg3
  let main_cst_2 : FVec F S_ .f32 := constant S_ .f32 0x7F800000#32
  let main_v10 : FVec F S1x1048576 .f32 := broadcastInDim S1x1048576 ![] bcast_S_S1x1048576 main_cst_2
  let main_v11 : IVec S1x1048576 1 := cmpf .olt main_v9 main_v10
  let main_c_3 : IVec S_ 1 := constantI S_ 1 1#1
  let main_v12 : IVec S_ 1 := (fun x v => Host.reduce IntOp.andi x v reducesTo_S1x1048576_S_d0_1 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S64x8192 : Shape := ⟨2, ![64, 8192]⟩
abbrev S32x1048576 : Shape := ⟨2, ![32, 1048576]⟩
abbrev S1x1048576 : Shape := ⟨2, ![1, 1048576]⟩
abbrev S8192 : Shape := ⟨1, ![8192]⟩
abbrev S4096x8192 : Shape := ⟨2, ![4096, 8192]⟩
abbrev S128x8192 : Shape := ⟨2, ![128, 8192]⟩
abbrev S4096 : Shape := ⟨1, ![4096]⟩
abbrev S1x4096 : Shape := ⟨2, ![1, 4096]⟩
abbrev S64x4096 : Shape := ⟨2, ![64, 4096]⟩
abbrev S1x128 : Shape := ⟨2, ![1, 128]⟩
abbrev S64x128 : Shape := ⟨2, ![64, 128]⟩
abbrev S64x256 : Shape := ⟨2, ![64, 256]⟩
abbrev S128x2048 : Shape := ⟨2, ![128, 2048]⟩
abbrev S64x2048 : Shape := ⟨2, ![64, 2048]⟩
abbrev S256x2048 : Shape := ⟨2, ![256, 2048]⟩

abbrev nBuf : Space → Nat
  | .hbm => 16
  | .vmem => 14
  | .smem => 0
  | _ => 0

abbrev bufTy : (tb : Table) → Fin (tcTables nBuf tb) → BufTy
  | .hbm, ⟨0, _⟩ => ⟨S64x8192, .f32⟩
  | .hbm, ⟨1, _⟩ => ⟨S32x1048576, .i32⟩
  | .hbm, ⟨2, _⟩ => ⟨S1x1048576, .f32⟩
  | .hbm, ⟨3, _⟩ => ⟨S1x1048576, .f32⟩
  | .hbm, ⟨4, _⟩ => ⟨S8192, .f32⟩
  | .hbm, ⟨5, _⟩ => ⟨S4096x8192, .i32⟩
  | .hbm, ⟨6, _⟩ => ⟨S128x8192, .f32⟩
  | .hbm, ⟨7, _⟩ => ⟨S128x8192, .f32⟩
  | .hbm, ⟨8, _⟩ => ⟨S64x8192, .bf16⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S64x4096, .f32⟩
  | .hbm, ⟨14, _⟩ => ⟨S64x4096, .f32⟩
  | .hbm, ⟨15, _⟩ => ⟨S64x8192, .f32⟩
  | .local _ .vmem, ⟨0, _⟩ => ⟨S64x8192, .bf16⟩
  | .local _ .vmem, ⟨1, _⟩ => ⟨S128x8192, .i32⟩
  | .local _ .vmem, ⟨2, _⟩ => ⟨S128x8192, .i32⟩
  | .local _ .vmem, ⟨3, _⟩ => ⟨S128x8192, .f32⟩
  | .local _ .vmem, ⟨4, _⟩ => ⟨S128x8192, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x256, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v18 : BitVec 32 := Scalar.muli arg10 c1_i32_12
  let v19 : BitVec 32 := Scalar.addi c0_i32_13 v18
  let c2048_i32 : BitVec 32 := 2048#32
  let v20 : BitVec 32 := Scalar.muli v19 c2048_i32
  v20
def k0_off1 (k0_t1 : Fin k0_t1_loop.trips) : Fin 2 → Nat :=
  let c0_14 : Index := 0#32
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v18 : BitVec 32 := Scalar.muli arg10 c1_i32_12
  let v19 : BitVec 32 := Scalar.addi c0_i32_13 v18
  let c2048_i32 : BitVec 32 := 2048#32
  let v20 : BitVec 32 := Scalar.muli v19 c2048_i32
  let v21 : BitVec 32 := v20
  let v22 : Index := Scalar.indexCast v21
  ![0, v22.toNat]
def k0_off2 (k0_t1 : Fin k0_t1_loop.trips) : Fin 2 → Nat :=
  let c0_15 : Index := 0#32
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v18 : BitVec 32 := Scalar.muli arg10 c1_i32_12
  let v19 : BitVec 32 := Scalar.addi c0_i32_13 v18
  let c2048_i32 : BitVec 32 := 2048#32
  let v20 : BitVec 32 := Scalar.muli v19 c2048_i32
  let v21 : BitVec 32 := v20
  let v25 : Index := Scalar.indexCast v21
  ![0, v25.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x1048576_S4096x8192 : S32x1048576.ShapeCasts S4096x8192
  shapeCasts_S1x1048576_S128x8192 : S1x1048576.ShapeCasts S128x8192
  bitsLt_bf16_f32 : FTy.bits .bf16 < FTy.bits .f32
  slices_S8192_S4096_0 : S8192.Slices ![0] S4096
  shapeCasts_S4096_S1x4096 : S4096.ShapeCasts S1x4096
  slices_S8192_S4096_4096 : S8192.Slices ![4096] S4096
  inb_S64x256_S64x256_0_0 : ∀ a, (![0, 0] : Fin 2 → Nat) a + S64x256.size a ≤ S64x256.size a
  h_S64x256 : 0 < S64x256.numel
  shapeCasts_S64x256_S64x256 : S64x256.ShapeCasts S64x256
  h_S128x2048 : 0 < S128x2048.numel
  shapeCasts_S128x2048_S128x2048 : S128x2048.ShapeCasts S128x2048
  h_S64x2048 : 0 < S64x2048.numel
  shapeCasts_S64x2048_S64x2048 : S64x2048.ShapeCasts S64x2048
  concatenates_S128x2048_S128x2048_S256x2048_d0 : Shape.Concatenates [S128x2048, S128x2048] S256x2048 0
  slices_S64x256_o0_0_S64x128 : S64x256.Slices ![0, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  slices_S64x256_o0_128_S64x128 : S64x256.Slices ![0, 128] S64x128
  concatenates_S64x4096_S64x4096_S64x8192_d1 : Shape.Concatenates [S64x4096, S64x4096] S64x8192 1
  dot_S64x2048_S256x2048_S64x256_1_1_0_0_n_n_wf : DotDims.WF S64x2048 S256x2048 S64x256 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S128x2048.size a ≤ S128x8192.size a
  k0_off2_inb : ∀ k0_t1 : Fin k0_t1_loop.trips, ∀ a, (k0_off2 k0_t1) a + S64x2048.size a ≤ S64x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .bf16 = 32 ∨ (Rect.block (s := S64x8192) S64x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .i32 = 32 ∨ (Rect.block (s := S4096x8192) S128x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x8192.size a
  hwx0_2 : ∀ i : grid0.Coords, EltTy.bits .f32 = 32 ∨ (Rect.block (s := S128x8192) S128x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S128x8192.size a
  hwx0_3 : ∀ i : grid0.Coords, EltTy.bits .f32 = 32 ∨ (Rect.block (s := S128x8192) S128x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x4096.size a
  hwx0_4 : ∀ i : grid0.Coords, EltTy.bits .f32 = 32 ∨ (Rect.block (s := S1x4096) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x4096.size a
  hwx0_5 : ∀ i : grid0.Coords, EltTy.bits .f32 = 32 ∨ (Rect.block (s := S1x4096) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x4096.size a
  hwx0_6 : ∀ i : grid0.Coords, EltTy.bits .f32 = 32 ∨ (Rect.block (s := S64x4096) S64x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x4096.size a
  hwx0_7 : ∀ i : grid0.Coords, EltTy.bits .f32 = 32 ∨ (Rect.block (s := S64x4096) S64x128.size (cc0_transform_7 i) (hinb0_7 i)).WholeWords (EltTy.packing .f32)

variable [Facts₀]

def dot_S64x2048_S256x2048_S64x256_1_1_0_0_n_n : DotDims S64x2048 S256x2048 S64x256 where
  lhsContracting := [1]
  rhsContracting := [1]
  lhsNonContracting := [0]
  rhsNonContracting := [0]
  lhsBatch := []
  rhsBatch := []
  wf := dot_S64x2048_S256x2048_S64x256_1_1_0_0_n_n_wf

abbrev win0_0 : Pipeline.Window sig grid0 :=
  Pipeline.Window.ofSpec (Memref.whole main_v3) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S64x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x8192 : Shape := ⟨2, ![64, 8192]⟩
abbrev S32x1048576 : Shape := ⟨2, ![32, 1048576]⟩
abbrev S1x1048576 : Shape := ⟨2, ![1, 1048576]⟩
abbrev S8192 : Shape := ⟨1, ![8192]⟩
abbrev S_ : Shape := ⟨0, ![]⟩
abbrev S64x1048576 : Shape := ⟨2, ![64, 1048576]⟩
abbrev S8192x8192 : Shape := ⟨2, ![8192, 8192]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S32x1048576, .i32⟩
  | .hbm, ⟨2, _⟩ => ⟨S1x1048576, .f32⟩
  | .hbm, ⟨3, _⟩ => ⟨S1x1048576, .f32⟩
  | .hbm, ⟨4, _⟩ => ⟨S8192, .f32⟩
  | .hbm, ⟨5, _⟩ => ⟨S_, .i32⟩
  | .hbm, ⟨6, _⟩ => ⟨S32x1048576, .i32⟩
  | .hbm, ⟨7, _⟩ => ⟨S32x1048576, .i32⟩
  | .hbm, ⟨8, _⟩ => ⟨S32x1048576, .f32⟩
  | .hbm, ⟨9, _⟩ => ⟨S_, .i32⟩
  | .hbm, ⟨10, _⟩ => ⟨S32x1048576, .i32⟩
  | .hbm, ⟨11, _⟩ => ⟨S32x1048576, .i32⟩
  | .hbm, ⟨12, _⟩ => ⟨S32x1048576, .f32⟩
  | .hbm, ⟨13, _⟩ => ⟨S64x1048576, .f32⟩
  | .hbm, ⟨14, _⟩ => ⟨S64x1048576, .f32⟩
  | .hbm, ⟨15, _⟩ => ⟨S64x1048576, .f32⟩
  | .hbm, ⟨16, _⟩ => ⟨S64x1048576, .f32⟩
  | .hbm, ⟨17, _⟩ => ⟨S64x1048576, .f32⟩
  | .hbm, ⟨18, _⟩ => ⟨S8192x8192, .f32⟩
  | .hbm, ⟨19, _⟩ => ⟨S8192x8192, .f32⟩
  | .hbm, ⟨20, _⟩ => ⟨S64x8192, .f32⟩
  | .hbm, ⟨21, _⟩ => ⟨S1x8192, .f32⟩
  | .hbm, ⟨22, _⟩ => ⟨S64x8192, .f32⟩
  | .hbm, ⟨23, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S32x1048576 : S_.BroadcastsInDim S32x1048576 (![] : Fin 0 → Fin S32x1048576.rank)
  concatenates_S32x1048576_S32x1048576_S64x1048576_d0 : Shape.Concatenates [S32x1048576, S32x1048576] S64x1048576 0
  bcast_S1x1048576_S64x1048576_0_1 : S1x1048576.BroadcastsInDim S64x1048576 (![0, 1] : Fin 2 → Fin S64x1048576.rank)
  shapeCasts_S64x1048576_S8192x8192 : S64x1048576.ShapeCasts S8192x8192
  transposes_S8192x8192_S8192x8192_1_0 : S8192x8192.Transposes [1, 0] S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.ChunkFold.lean ====
import proofs.«404370_j38534446579914_3_alg».proof.Proof.Gen.KernelIdeal.Frame
import Idealize.ShloMosaic.Lib.Pipeline.Value
import Idealize.ShloMosaic.Lib.Tactic

/-!
The kernel body at one grid point. The body zeroes a 64×256 accumulator, then for each of the four
K-chunks of width 2048 adds to it the product of the chunk of the activations with the chunk of the
dequantised weights (high nibbles stacked over low nibbles), and finally writes the accumulator's left
half plus one bias row to the first output block and its right half plus the other bias row to the second.

This file reads the accumulator back through the loop: after `n` chunks it holds `acc n`, the `n`-fold
iteration of the chunk update starting from the zero block; the two output blocks are then the two
closing payloads applied to `acc` at the loop's trip count.
-/

noncomputable section

open Idealize.ShloMosaic Idealize.ShloMosaic.TcCoe Idealize.SL.Sem

namespace Cert.KernelIdeal.ChunkFold

open Cert.KernelIdeal Cert.KernelIdeal.Gen

variable {F : FTy → Type} [FloatOps F]

theorem hz : (![0, 0] : Fin 2 → Nat) = fun _ => 0 := funext fun a => by fin_cases a <;> rfl

/-- The accumulator after `n` K-chunks: the zero block, then one chunk update per trip, each reading the
    chunk's columns of the four input blocks. Past the last trip it stays. -/
def acc (x0 : Vec F S64x8192 .bf16) (x1 : Vec F S128x8192 .i32) (x2 : Vec F S128x8192 .f32) (x3 : Vec F S128x8192 .f32) : ℕ → Vec F S64x256 .f32
  | 0 => k0_pay1
  | n + 1 =>
    if h : n < k0_t1_loop.trips then
      k0_pay2
        (View.ld x1 (Rect.unit (s := S128x8192) (k0_off1 ⟨n, h⟩) S128x2048.size (k0_off1_inb ⟨n, h⟩)))
        (View.ld x0 (Rect.unit (s := S64x8192) (k0_off2 ⟨n, h⟩) S64x2048.size (k0_off2_inb ⟨n, h⟩)))
        (View.ld x2 (Rect.unit (s := S128x8192) (k0_off1 ⟨n, h⟩) S128x2048.size (k0_off1_inb ⟨n, h⟩)))
        (View.ld x3 (Rect.unit (s := S128x8192) (k0_off1 ⟨n, h⟩) S128x2048.size (k0_off1_inb ⟨n, h⟩)))
        (acc x0 x1 x2 x3 n)
    else acc x0 x1 x2 x3 n

/-- What a whole-buffer load of the accumulator reads after `n` trips of the loop: `acc n`. By induction
    on the trips: each trip's one store covers the buffer, and its payload is the chunk update of what
    the trip itself loaded from the buffer. -/
theorem scratch_after (c : Dev nD) (i : grid0.Coords) (arg1 : Memref sig .tc .vmem S64x8192 .bf16) (harg1 : arg1.IsWhole) (arg2 : Memref sig .tc .vmem S128x8192 .i32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x256 .f32) (harg9 : arg9.IsWhole)
    (x0 : Vec F S64x8192 .bf16) (x1 : Vec F S128x8192 .i32) (x2 : Vec F S128x8192 .f32) (x3 : Vec F S128x8192 .f32) :
    ∀ n : ℕ, n ≤ k0_t1_loop.trips →
      View.readAt (Elt F) arg9.view (Rect.unit (s := S64x256) ![0, 0] S64x256.size inb_S64x256_S64x256_0_0).toLoadRect
        (arg9.view.writes (Elt F) (arg9.view.writes (Elt F) arg9.view.junk [⟨(Rect.unit (s := S64x256) ![0, 0] S64x256.size inb_S64x256_S64x256_0_0), k0_pay1⟩])
          (pb_k0_t1 (F := F) Variants.none c none i arg1 harg1 arg2 harg2 arg3 harg3 arg4 harg4 arg5 harg5 arg6 harg6 arg7 harg7 arg8 harg8 arg9 harg9 (harg1.unread x0) (harg2.unread x1) (harg3.unread x2) (harg4.unread x3) (arg9.view.writes (Elt F) arg9.view.junk [⟨(Rect.unit (s := S64x256) ![0, 0] S64x256.size inb_S64x256_S64x256_0_0), k0_pay1⟩]) n))
      = acc x0 x1 x2 x3 n
  | 0, _ => by
    rw [pb_k0_t1.eq_1, View.writes_nil, View.readAt_eq_ld, View.read_writes_junk_eq_canon,
      View.canon_unit_zero hz, View.ld_unit_zero (S := S64x256) hz]
    rfl
  | n + 1, hn => by
    have h : n < k0_t1_loop.trips := hn
    have ih := scratch_after c i arg1 harg1 arg2 harg2 arg3 harg3 arg4 harg4 arg5 harg5 arg6 harg6 arg7 harg7 arg8 harg8 arg9 harg9 x0 x1 x2 x3 n (Nat.le_of_lt h)
    rw [show pb_k0_t1 (F := F) Variants.none c none i arg1 harg1 arg2 harg2 arg3 harg3 arg4 harg4 arg5 harg5 arg6 harg6 arg7 harg7 arg8 harg8 arg9 harg9 (harg1.unread x0) (harg2.unread x1) (harg3.unread x2) (harg4.unread x3) (arg9.view.writes (Elt F) arg9.view.junk [⟨(Rect.unit (s := S64x256) ![0, 0] S64x256.size inb_S64x256_S64x256_0_0), k0_pay1⟩]) (n + 1) = _ from
      pb_k0_t1_succ (F := F) Variants.none c none i arg1 harg1 arg2 harg2 arg3 harg3 arg4 harg4 arg5 harg5 arg6 harg6 arg7 harg7 arg8 harg8 arg9 harg9 (harg1.unread x0) (harg2.unread x1) (harg3.unread x2) (harg4.unread x3) (arg9.view.writes (Elt F) arg9.view.junk [⟨(Rect.unit (s := S64x256) ![0, 0] S64x256.size inb_S64x256_S64x256_0_0), k0_pay1⟩]) ⟨n, h⟩]
    rw [View.writes_append]
    unfold tripL_k0_t1 trip_k0_t1
    dsimp only
    rw [View.readAt_eq_ld, View.read_writes_eq_canon _ _ _ (fun y => ⟨_, List.mem_singleton_self _, View.mem_set_unit_zero hz inb_S64x256_S64x256_0_0 y⟩),
      View.canon_unit_zero hz, View.ld_unit_zero (S := S64x256) hz, ih]
    rw [acc, dif_pos h]
    simp only [View.readAt_eq_ld, harg1.read_unread, harg2.read_unread, harg3.read_unread, harg4.read_unread]

/-- The first output block: the accumulator after the loop, its left half plus the first bias row. -/
theorem out6_eq (c : Dev nD) (i : grid0.Coords) (arg1 : Memref sig .tc .vmem S64x8192 .bf16) (harg1 : arg1.IsWhole) (arg2 : Memref sig .tc .vmem S128x8192 .i32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x256 .f32) (harg9 : arg9.IsWhole)
    (x0 : Vec F S64x8192 .bf16) (x1 : Vec F S128x8192 .i32) (x2 : Vec F S128x8192 .f32) (x3 : Vec F S128x8192 .f32) (x4 : Vec F S1x128 .f32) (x5 : Vec F S1x128 .f32) :
    out0_A_6 c i arg1 harg1 arg2 harg2 arg3 harg3 arg4 harg4 arg5 harg5 arg6 harg6 arg7 harg7 arg8 harg8 arg9 harg9 x0 x1 x2 x3 x4 x5 = k0_pay3 (acc x0 x1 x2 x3 k0_t1_loop.trips) x4 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz, View.writes_append]
  rw [show View.readAt (Elt F) arg9.view (Rect.unit (s := S64x256) ![0, 0] S64x256.size inb_S64x256_S64x256_0_0).toLoadRect _ = _ from
    scratch_after c i arg1 harg1 arg2 harg2 arg3 harg3 arg4 harg4 arg5 harg5 arg6 harg6 arg7 harg7 arg8 harg8 arg9 harg9 x0 x1 x2 x3 k0_t1_loop.trips le_rfl]
  simp only [View.readAt_eq_ld, harg5.read_unread, View.ld_unit_zero (S := S1x128) hz]

/-- The second output block: the accumulator after the loop, its right half plus the second bias row. -/
theorem out7_eq (c : Dev nD) (i : grid0.Coords) (arg1 : Memref sig .tc .vmem S64x8192 .bf16) (harg1 : arg1.IsWhole) (arg2 : Memref sig .tc .vmem S128x8192 .i32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x256 .f32) (harg9 : arg9.IsWhole)
    (x0 : Vec F S64x8192 .bf16) (x1 : Vec F S128x8192 .i32) (x2 : Vec F S128x8192 .f32) (x3 : Vec F S128x8192 .f32) (x4 : Vec F S1x128 .f32) (x5 : Vec F S1x128 .f32) :
    out0_A_7 c i arg1 harg1 arg2 harg2 arg3 harg3 arg4 harg4 arg5 harg5 arg6 harg6 arg7 harg7 arg8 harg8 arg9 harg9 x0 x1 x2 x3 x4 x5 = k0_pay4 (acc x0 x1 x2 x3 k0_t1_loop.trips) x5 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz, View.writes_append]
  rw [show View.readAt (Elt F) arg9.view (Rect.unit (s := S64x256) ![0, 0] S64x256.size inb_S64x256_S64x256_0_0).toLoadRect _ = _ from
    scratch_after c i arg1 harg1 arg2 harg2 arg3 harg3 arg4 harg4 arg5 harg5 arg6 harg6 arg7 harg7 arg8 harg8 arg9 harg9 x0 x1 x2 x3 k0_t1_loop.trips le_rfl]
  simp only [View.readAt_eq_ld, harg6.read_unread, View.ld_unit_zero (S := S1x128) hz]

end Cert.KernelIdeal.ChunkFold

end
-- ==== Proof.Spec.lean ====
import Idealize.ShloMosaic.PureOps.Ideal
import Idealize.ShloMosaic.PureOps.Ideal.Laws
import Idealize.ShloMosaic.Lib.ValueIdx

/-!
The specification: a linear layer whose 8192×8192 weight matrix is stored as 4-bit codes, two per
32-bit word, with one scale and one zero point per code.

The packed array has 32 rows and 1048576 = 128·8192 columns. Weight entry `(o, k)` (output feature `o`,
input feature `k`) lives in column `(o mod 128)·8192 + k` of packed row `(o div 128) mod 32`: its code is the
word shifted right by four (arithmetically) when `o < 4096`, the word's low four bits otherwise. The
dequantised weight is `(code − zero)·scale` with the zero point and scale of that same column, and

  result (b, o) = Σₖ x (b, k) · weight (o, k) + bias o

over the extended reals. The sum over `k` splits into four consecutive chunks of 2048 terms.
-/

noncomputable section

namespace Cert.PackedLinear

open Idealize.ShloMosaic Idealize.ShloMosaic.ValueIdx

/-- The column of the packed array (and of the scale and zero rows) that holds weight entry `(o, k)`. -/
def col (o k : Fin 8192) : Fin 1048576 :=
  ⟨(o.val % 128) * 8192 + k.val, by have := o.isLt; have := k.isLt; omega⟩

/-- The packed row that holds weight entry `(o, ·)`. -/
def prow (o : Fin 8192) : Fin 32 := ⟨(o.val / 128) % 32, Nat.mod_lt _ (by decide)⟩

/-- The 4-bit code of weight entry `(o, k)`, as a 32-bit word: the high nibble (an arithmetic shift by four)
    for the first 4096 output features, the low nibble (a mask) for the rest. -/
def code (wq : (⟨2, ![32, 1048576]⟩ : Shape).Idx → BitVec 32) (o k : Fin 8192) : BitVec 32 :=
  if o.val < 4096 then IntOp.shrsi .host (wq (ix2 (prow o) (col o k))) 4#32
  else IntOp.andi (wq (ix2 (prow o) (col o k))) 15#32

/-- The dequantised weight entry `(o, k)`: `(code − zero)·scale`. -/
def weight (wq : (⟨2, ![32, 1048576]⟩ : Shape).Idx → BitVec 32)
    (sc zr : (⟨2, ![1, 1048576]⟩ : Shape).Idx → EReal) (o k : Fin 8192) : EReal :=
  (FloatOps.sitofp (F := Ideal) .f32 (code wq o k) - zr (ix2 (0 : Fin 1) (col o k))) * sc (ix2 (0 : Fin 1) (col o k))

/-- The layer's output. -/
def result (x : (⟨2, ![64, 8192]⟩ : Shape).Idx → EReal) (wq : (⟨2, ![32, 1048576]⟩ : Shape).Idx → BitVec 32)
    (sc zr : (⟨2, ![1, 1048576]⟩ : Shape).Idx → EReal) (bias : (⟨1, ![8192]⟩ : Shape).Idx → EReal) :
    (⟨2, ![64, 8192]⟩ : Shape).Idx → EReal :=
  fun i => (∑ k : Fin 8192, x (ix2 (i 0) k) * weight wq sc zr (i 1) k) + bias (ix1 (i 1))

/-- A sum over 8192 terms is the sum of its four consecutive chunks of 2048 terms. -/
theorem sum_chunks (f : Fin 8192 → EReal) :
    ∑ k : Fin 8192, f k
      = ∑ c : Fin 4, ∑ q : Fin 2048, f ⟨2048 * c.val + q.val, by have := c.isLt; have := q.isLt; omega⟩ := by
  rw [← Fintype.sum_prod_type']
  refine (Equiv.sum_comp (finProdFinEquiv (m := 4) (n := 2048)) f).symm.trans ?_
  refine Finset.sum_congr rfl fun p _ => congrArg f (Fin.ext ?_)
  show p.2.val + 2048 * p.1.val = 2048 * p.1.val + p.2.val
  omega

/-- Four chunk sums added one after the other onto zero are the sum over the chunks. -/
theorem fold_four (g : Fin 4 → EReal) : (((0 + g 0) + g 1) + g 2) + g 3 = ∑ c : Fin 4, g c := by
  rw [Fin.sum_univ_four, zero_add]

end Cert.PackedLinear

end
-- ==== Proof.ChunkValue.lean ====
import proofs.«404370_j38534446579914_3_alg».proof.Proof.ChunkFold
import proofs.«404370_j38534446579914_3_alg».proof.Proof.Spec
import Idealize.ShloMosaic.Lib.Pipeline.Value
import Idealize.ShloMosaic.Lib.ValueIdx
import Idealize.ShloMosaic.Lib.KernelVsHost
import Idealize.ShloMosaic.PureOps.Ideal.Laws

/-!
The kernel body's values over the extended reals, entry by entry.

One chunk update adds, at accumulator entry `(b, n)`, the sum over the chunk's 2048 columns `q` of
`x (b, q) · w (n, q)`, where row `n` of the stacked weight chunk is the dequantised high nibble of packed
row `n` for `n < 128` and the dequantised low nibble of packed row `n − 128` otherwise. Four updates
from zero give the full sum over the 8192 columns; the closing payloads add the bias row.
-/

noncomputable section

open Idealize.ShloMosaic Idealize.ShloMosaic.TcCoe Idealize.SL.Sem Idealize.ShloMosaic.ValueIdx

namespace Cert.KernelIdeal.ChunkValue

open Cert.KernelIdeal Cert.KernelIdeal.Gen Cert.KernelIdeal.ChunkFold

/-! ### The matrix product of one chunk -/

theorem lhs_axis0 (i : S64x256.Idx) (q : dot_S64x2048_S256x2048_S64x256_1_1_0_0_n_n.contr.Idx) :
    (dot_S64x2048_S256x2048_S64x256_1_1_0_0_n_n.lhsIdx i q 0).val = (i 0).val := by
  unfold DotDims.lhsIdx
  rw [dif_neg (show ¬(0 : Fin S64x2048.rank) ∈ dot_S64x2048_S256x2048_S64x256_1_1_0_0_n_n.lhsBatch by decide), dif_pos (show (0 : Fin S64x2048.rank) ∈ dot_S64x2048_S256x2048_S64x256_1_1_0_0_n_n.lhsNonContracting by decide)]
  rfl
theorem lhs_axis1 (i : S64x256.Idx) (q : dot_S64x2048_S256x2048_S64x256_1_1_0_0_n_n.contr.Idx) :
    (dot_S64x2048_S256x2048_S64x256_1_1_0_0_n_n.lhsIdx i q 1).val = (q ⟨0, by decide⟩).val :=
  dot_S64x2048_S256x2048_S64x256_1_1_0_0_n_n.lhsIdx_val_of_single rfl i q
theorem rhs_axis0 (i : S64x256.Idx) (q : dot_S64x2048_S256x2048_S64x256_1_1_0_0_n_n.contr.Idx) :
    (dot_S64x2048_S256x2048_S64x256_1_1_0_0_n_n.rhsIdx i q 0).val = (i 1).val := by
  unfold DotDims.rhsIdx
  rw [dif_neg (show ¬(0 : Fin S256x2048.rank) ∈ dot_S64x2048_S256x2048_S64x256_1_1_0_0_n_n.rhsBatch by decide), dif_pos (show (0 : Fin S256x2048.rank) ∈ dot_S64x2048_S256x2048_S64x256_1_1_0_0_n_n.rhsNonContracting by decide)]
  rfl
theorem rhs_axis1 (i : S64x256.Idx) (q : dot_S64x2048_S256x2048_S64x256_1_1_0_0_n_n.contr.Idx) :
    (dot_S64x2048_S256x2048_S64x256_1_1_0_0_n_n.rhsIdx i q 1).val = (q ⟨0, by decide⟩).val :=
  dot_S64x2048_S256x2048_S64x256_1_1_0_0_n_n.rhsIdx_val_of_single rfl i q

/-- The chunk's product into a zero accumulator, at entry `(b, n)`: the sum over the chunk's columns of the
    activation row `b` times the weight row `n` (both operands are contracted along their column axis). -/
theorem chunk_matmul (l : FVec Ideal S64x2048 .bf16) (w : FVec Ideal S256x2048 .bf16) (b : Fin 64) (n : Fin 256) :
    matmul dot_S64x2048_S256x2048_S64x256_1_1_0_0_n_n none l w (constant (F := Ideal) S64x256 .f32 0x00000000#32) (ix2 b n)
      = ∑ q : Fin 2048, l (ix2 b q) * w (ix2 n q) := by
  simp only [matmul]
  rw [Ideal.matmul_constant_zero_apply, ← Equiv.sum_comp (ValueIdx.contrEquiv1 dot_S64x2048_S256x2048_S64x256_1_1_0_0_n_n 2048 rfl rfl).symm]
  refine Finset.sum_congr rfl fun k _ => ?_
  have hk := ValueIdx.contrEquiv1_symm_val dot_S64x2048_S256x2048_S64x256_1_1_0_0_n_n 2048 rfl rfl k
  have el : dot_S64x2048_S256x2048_S64x256_1_1_0_0_n_n.lhsIdx (ix2 b n) ((ValueIdx.contrEquiv1 dot_S64x2048_S256x2048_S64x256_1_1_0_0_n_n 2048 rfl rfl).symm k) = ix2 b k := funext fun a => Fin.ext (by
    match a with
    | ⟨0, _⟩ => exact lhs_axis0 _ _
    | ⟨1, _⟩ => exact (lhs_axis1 _ _).trans hk)
  have er : dot_S64x2048_S256x2048_S64x256_1_1_0_0_n_n.rhsIdx (ix2 b n) ((ValueIdx.contrEquiv1 dot_S64x2048_S256x2048_S64x256_1_1_0_0_n_n 2048 rfl rfl).symm k) = ix2 n k := funext fun a => Fin.ext (by
    match a with
    | ⟨0, _⟩ => exact rhs_axis0 _ _
    | ⟨1, _⟩ => exact (rhs_axis1 _ _).trans hk)
  rw [el, er]

/-! ### One chunk update, entry by entry -/

/-- The left half of the accumulator (`n = r < 128`): the update adds the chunk's sum against the dequantised
    high nibbles of packed row `r`. -/
theorem update_hi (v23 : Vec Ideal S128x2048 .i32) (v26 : Vec Ideal S64x2048 .bf16) (v29 v32 : Vec Ideal S128x2048 .f32)
    (v47 : Vec Ideal S64x256 .f32) (b : Fin 64) (r : Fin 128) (n : Fin 256) (hn : n.val = r.val) :
    k0_pay2 v23 v26 v29 v32 v47 (ix2 b n)
      = v47 (ix2 b n)
        + ∑ q : Fin 2048, v26 (ix2 b q) *
            ((FloatOps.sitofp (F := Ideal) .f32 (IntOp.shrsi .host (v23 (ix2 r q)) 4#32) - v32 (ix2 r q)) * v29 (ix2 r q)) := by
  unfold k0_pay2
  simp only [shapeCast_self, addf]
  rw [chunk_matmul]
  refine congrArg (v47 (ix2 b n) + ·) (Finset.sum_congr rfl fun q _ => congrArg (v26 (ix2 b q) * ·) ?_)
  refine (concatenate_pair_apply_left _ _ _ concatenates_S128x2048_S128x2048_S256x2048_d0 (ix2 n q) rfl (ix2 r q)
    (fun a => by match a with | ⟨0, _⟩ => exact hn.symm | ⟨1, _⟩ => rfl)).trans ?_
  simp only [shapeCast_self]
  show (FloatOps.sitofp (F := Ideal) .f32 (IntOp.shrsi .vector (v23 (ix2 r q)) 4#32) - v32 (ix2 r q)) * v29 (ix2 r q) = _
  rw [shrsi_unit .vector .host]

/-- The right half (`n = 128 + r`): the same against the dequantised low nibbles of packed row `r`. -/
theorem update_lo (v23 : Vec Ideal S128x2048 .i32) (v26 : Vec Ideal S64x2048 .bf16) (v29 v32 : Vec Ideal S128x2048 .f32)
    (v47 : Vec Ideal S64x256 .f32) (b : Fin 64) (r : Fin 128) (n : Fin 256) (hn : n.val = 128 + r.val) :
    k0_pay2 v23 v26 v29 v32 v47 (ix2 b n)
      = v47 (ix2 b n)
        + ∑ q : Fin 2048, v26 (ix2 b q) *
            ((FloatOps.sitofp (F := Ideal) .f32 (IntOp.andi (v23 (ix2 r q)) 15#32) - v32 (ix2 r q)) * v29 (ix2 r q)) := by
  unfold k0_pay2
  simp only [shapeCast_self, addf]
  rw [chunk_matmul]
  refine congrArg (v47 (ix2 b n) + ·) (Finset.sum_congr rfl fun q _ => congrArg (v26 (ix2 b q) * ·) ?_)
  refine (concatenate_pair_apply_right _ _ _ concatenates_S128x2048_S128x2048_S256x2048_d0 (ix2 n q) rfl rfl (ix2 r q)
    (fun a ha => by match a with | ⟨0, _⟩ => exact absurd rfl ha | ⟨1, _⟩ => rfl)
    (by show r.val + 128 = n.val; omega)).trans ?_
  simp only [shapeCast_self]
  rfl

/-! ### The chunk's columns of the loaded blocks -/

theorem trips_lt (k : Fin k0_t1_loop.trips) : k.val < 4 := Nat.lt_of_lt_of_le k.isLt k0_t1_abs.2.1

/-- Chunk `k` of a 128-row block: columns `2048·k + q`. -/
theorem ld_rows {e : EltTy} (X : Vec Ideal S128x8192 e) (k : Fin k0_t1_loop.trips) (r : Fin 128) (q : Fin 2048) :
    View.ld X (Rect.unit (s := S128x8192) (k0_off1 k) S128x2048.size (k0_off1_inb k)) (ix2 r q)
      = X (ix2 r ⟨2048 * k.val + q.val, by have := trips_lt k; have := q.isLt; omega⟩) := by
  show X _ = X _
  refine congrArg X (funext fun a => Fin.ext ?_)
  have e := k0_off1_eq k
  match a with
  | ⟨0, _⟩ => show k0_off1 k 0 + 1 * r.val = r.val; rw [e]; show 0 + 1 * r.val = r.val; omega
  | ⟨1, _⟩ => show k0_off1 k 1 + 1 * q.val = 2048 * k.val + q.val; rw [e]; show 2048 * k.val + 1 * q.val = _; omega

/-- Chunk `k` of the activations: columns `2048·k + q`. -/
theorem ld_acts (X : Vec Ideal S64x8192 .bf16) (k : Fin k0_t1_loop.trips) (b : Fin 64) (q : Fin 2048) :
    View.ld X (Rect.unit (s := S64x8192) (k0_off2 k) S64x2048.size (k0_off2_inb k)) (ix2 b q)
      = X (ix2 b ⟨2048 * k.val + q.val, by have := trips_lt k; have := q.isLt; omega⟩) := by
  show X _ = X _
  refine congrArg X (funext fun a => Fin.ext ?_)
  have e := k0_off2_eq k
  match a with
  | ⟨0, _⟩ => show k0_off2 k 0 + 1 * b.val = b.val; rw [e]; show 0 + 1 * b.val = b.val; omega
  | ⟨1, _⟩ => show k0_off2 k 1 + 1 * q.val = 2048 * k.val + q.val; rw [e]; show 2048 * k.val + 1 * q.val = _; omega

/-! ### Four updates from zero: the whole sum -/

/-- The loop makes four trips. -/
theorem trips_eq : k0_t1_loop.trips = 4 := by decide

/-- The accumulator starts at zero. -/
theorem acc_zero (x0 : Vec Ideal S64x8192 .bf16) (x1 : Vec Ideal S128x8192 .i32) (x2 x3 : Vec Ideal S128x8192 .f32)
    (j : S64x256.Idx) : acc x0 x1 x2 x3 0 j = 0 := by
  show k0_pay1 (F := Ideal) j = 0
  unfold k0_pay1
  simp only [shapeCast_self]
  exact Ideal.ofBits_zero_f32

/-- Term `k` of the sum for the first 4096 output features: activation times dequantised high nibble. -/
def hiTerm (x0 : Vec Ideal S64x8192 .bf16) (x1 : Vec Ideal S128x8192 .i32) (x2 x3 : Vec Ideal S128x8192 .f32)
    (b : Fin 64) (r : Fin 128) (k : Fin 8192) : EReal :=
  x0 (ix2 b k) * ((FloatOps.sitofp (F := Ideal) .f32 (IntOp.shrsi .host (x1 (ix2 r k)) 4#32) - x3 (ix2 r k)) * x2 (ix2 r k))

/-- Term `k` of the sum for the last 4096 output features: activation times dequantised low nibble. -/
def loTerm (x0 : Vec Ideal S64x8192 .bf16) (x1 : Vec Ideal S128x8192 .i32) (x2 x3 : Vec Ideal S128x8192 .f32)
    (b : Fin 64) (r : Fin 128) (k : Fin 8192) : EReal :=
  x0 (ix2 b k) * ((FloatOps.sitofp (F := Ideal) .f32 (IntOp.andi (x1 (ix2 r k)) 15#32) - x3 (ix2 r k)) * x2 (ix2 r k))

theorem acc_succ_hi (x0 : Vec Ideal S64x8192 .bf16) (x1 : Vec Ideal S128x8192 .i32) (x2 x3 : Vec Ideal S128x8192 .f32)
    (b : Fin 64) (r : Fin 128) (n : Fin 256) (hn : n.val = r.val) (j : ℕ) (h : j < k0_t1_loop.trips) :
    acc x0 x1 x2 x3 (j + 1) (ix2 b n) = acc x0 x1 x2 x3 j (ix2 b n)
      + ∑ q : Fin 2048, hiTerm x0 x1 x2 x3 b r ⟨2048 * j + q.val, by have hj : j < 4 := Nat.lt_of_lt_of_le h k0_t1_abs.2.1; have := q.isLt; show 2048 * j + q.val < 8192; omega⟩ := by
  rw [acc, dif_pos h, update_hi _ _ _ _ _ b r n hn]
  refine congrArg (acc x0 x1 x2 x3 j (ix2 b n) + ·) (Finset.sum_congr rfl fun q _ => ?_)
  rw [ld_acts x0 ⟨j, h⟩ b q, ld_rows x1 ⟨j, h⟩ r q, ld_rows x2 ⟨j, h⟩ r q, ld_rows x3 ⟨j, h⟩ r q]
  rfl

theorem acc_succ_lo (x0 : Vec Ideal S64x8192 .bf16) (x1 : Vec Ideal S128x8192 .i32) (x2 x3 : Vec Ideal S128x8192 .f32)
    (b : Fin 64) (r : Fin 128) (n : Fin 256) (hn : n.val = 128 + r.val) (j : ℕ) (h : j < k0_t1_loop.trips) :
    acc x0 x1 x2 x3 (j + 1) (ix2 b n) = acc x0 x1 x2 x3 j (ix2 b n)
      + ∑ q : Fin 2048, loTerm x0 x1 x2 x3 b r ⟨2048 * j + q.val, by have hj : j < 4 := Nat.lt_of_lt_of_le h k0_t1_abs.2.1; have := q.isLt; show 2048 * j + q.val < 8192; omega⟩ := by
  rw [acc, dif_pos h, update_lo _ _ _ _ _ b r n hn]
  refine congrArg (acc x0 x1 x2 x3 j (ix2 b n) + ·) (Finset.sum_congr rfl fun q _ => ?_)
  rw [ld_acts x0 ⟨j, h⟩ b q, ld_rows x1 ⟨j, h⟩ r q, ld_rows x2 ⟨j, h⟩ r q, ld_rows x3 ⟨j, h⟩ r q]
  rfl

/-- Four consecutive chunk sums added onto zero are the whole sum. -/
theorem four_chunks (f : Fin 8192 → EReal) :
    (((0 + ∑ q : Fin 2048, f ⟨2048 * 0 + q.val, by have := q.isLt; omega⟩)
        + ∑ q : Fin 2048, f ⟨2048 * 1 + q.val, by have := q.isLt; omega⟩)
        + ∑ q : Fin 2048, f ⟨2048 * 2 + q.val, by have := q.isLt; omega⟩)
        + ∑ q : Fin 2048, f ⟨2048 * 3 + q.val, by have := q.isLt; omega⟩
      = ∑ k : Fin 8192, f k := by
  rw [Cert.PackedLinear.sum_chunks, ← Cert.PackedLinear.fold_four]
  rfl

/-- After the loop the left half of the accumulator holds the whole sums against the high nibbles. -/
theorem acc_hi (x0 : Vec Ideal S64x8192 .bf16) (x1 : Vec Ideal S128x8192 .i32) (x2 x3 : Vec Ideal S128x8192 .f32)
    (b : Fin 64) (r : Fin 128) (n : Fin 256) (hn : n.val = r.val) :
    acc x0 x1 x2 x3 k0_t1_loop.trips (ix2 b n) = ∑ k : Fin 8192, hiTerm x0 x1 x2 x3 b r k := by
  have h4 : k0_t1_loop.trips = 4 := trips_eq
  rw [h4, acc_succ_hi x0 x1 x2 x3 b r n hn 3 (by omega), acc_succ_hi x0 x1 x2 x3 b r n hn 2 (by omega),
    acc_succ_hi x0 x1 x2 x3 b r n hn 1 (by omega), acc_succ_hi x0 x1 x2 x3 b r n hn 0 (by omega), acc_zero]
  exact four_chunks (hiTerm x0 x1 x2 x3 b r)

/-- After the loop the right half of the accumulator holds the whole sums against the low nibbles. -/
theorem acc_lo (x0 : Vec Ideal S64x8192 .bf16) (x1 : Vec Ideal S128x8192 .i32) (x2 x3 : Vec Ideal S128x8192 .f32)
    (b : Fin 64) (r : Fin 128) (n : Fin 256) (hn : n.val = 128 + r.val) :
    acc x0 x1 x2 x3 k0_t1_loop.trips (ix2 b n) = ∑ k : Fin 8192, loTerm x0 x1 x2 x3 b r k := by
  have h4 : k0_t1_loop.trips = 4 := trips_eq
  rw [h4, acc_succ_lo x0 x1 x2 x3 b r n hn 3 (by omega), acc_succ_lo x0 x1 x2 x3 b r n hn 2 (by omega),
    acc_succ_lo x0 x1 x2 x3 b r n hn 1 (by omega), acc_succ_lo x0 x1 x2 x3 b r n hn 0 (by omega), acc_zero]
  exact four_chunks (loTerm x0 x1 x2 x3 b r)

/-! ### The closing payloads -/

/-- The first output block at `(b, r)`: the accumulator's entry `(b, r)` plus the bias row's entry `r`. -/
theorem close_hi (A : Vec Ideal S64x256 .f32) (v7 : Vec Ideal S1x128 .f32) (b : Fin 64) (r : Fin 128) :
    k0_pay3 A v7 (ix2 b r) = A (ix2 b ⟨r.val, by have := r.isLt; omega⟩) + v7 (ix2 (0 : Fin 1) r) := by
  unfold k0_pay3
  simp only [shapeCast_self, addf]
  rw [extractStridedSlice_apply ![0, 0] A slices_S64x256_o0_0_S64x128 (ix2 b r) (ix2 b ⟨r.val, by have := r.isLt; omega⟩)
      (fun a => by match a with
        | ⟨0, _⟩ => show b.val = 0 + b.val; omega
        | ⟨1, _⟩ => show r.val = 0 + r.val; omega),
    broadcastTo_apply v7 broadcasts_S1x128_S64x128 (ix2 b r) (ix2 (0 : Fin 1) r)
      (fun a => by match a with
        | ⟨0, _⟩ => show (0 : ℕ) = if (1 : ℕ) = 1 then 0 else _; rw [if_pos rfl]
        | ⟨1, _⟩ => show r.val = if (128 : ℕ) = 1 then 0 else r.val; rw [if_neg (by decide)])]
  rfl

/-- The second output block at `(b, r)`: the accumulator's entry `(b, 128 + r)` plus the bias row's entry `r`. -/
theorem close_lo (A : Vec Ideal S64x256 .f32) (v13 : Vec Ideal S1x128 .f32) (b : Fin 64) (r : Fin 128) :
    k0_pay4 A v13 (ix2 b r) = A (ix2 b ⟨128 + r.val, by have := r.isLt; omega⟩) + v13 (ix2 (0 : Fin 1) r) := by
  unfold k0_pay4
  simp only [shapeCast_self, addf]
  rw [extractStridedSlice_apply ![0, 128] A slices_S64x256_o0_128_S64x128 (ix2 b r) (ix2 b ⟨128 + r.val, by have := r.isLt; omega⟩)
      (fun a => by match a with
        | ⟨0, _⟩ => show b.val = 0 + b.val; omega
        | ⟨1, _⟩ => rfl),
    broadcastTo_apply v13 broadcasts_S1x128_S64x128 (ix2 b r) (ix2 (0 : Fin 1) r)
      (fun a => by match a with
        | ⟨0, _⟩ => show (0 : ℕ) = if (1 : ℕ) = 1 then 0 else _; rw [if_pos rfl]
        | ⟨1, _⟩ => show r.val = if (128 : ℕ) = 1 then 0 else r.val; rw [if_neg (by decide)])]
  rfl

/-! ### One grid point's two output blocks -/

/-- The first output block of a point, entry `(b, r)`. -/
theorem block_hi (x0 : Vec Ideal S64x8192 .bf16) (x1 : Vec Ideal S128x8192 .i32) (x2 x3 : Vec Ideal S128x8192 .f32)
    (x4 : Vec Ideal S1x128 .f32) (b : Fin 64) (r : Fin 128) :
    k0_pay3 (acc x0 x1 x2 x3 k0_t1_loop.trips) x4 (ix2 b r)
      = (∑ k : Fin 8192, hiTerm x0 x1 x2 x3 b r k) + x4 (ix2 (0 : Fin 1) r) := by
  rw [close_hi, acc_hi x0 x1 x2 x3 b r _ rfl]

/-- The second output block of a point, entry `(b, r)`. -/
theorem block_lo (x0 : Vec Ideal S64x8192 .bf16) (x1 : Vec Ideal S128x8192 .i32) (x2 x3 : Vec Ideal S128x8192 .f32)
    (x5 : Vec Ideal S1x128 .f32) (b : Fin 64) (r : Fin 128) :
    k0_pay4 (acc x0 x1 x2 x3 k0_t1_loop.trips) x5 (ix2 b r)
      = (∑ k : Fin 8192, loTerm x0 x1 x2 x3 b r k) + x5 (ix2 (0 : Fin 1) r) := by
  rw [close_lo, acc_lo x0 x1 x2 x3 b r _ rfl]

end Cert.KernelIdeal.ChunkValue

end
-- ==== Proof.Staging.lean ====
import proofs.«404370_j38534446579914_3_alg».proof.Proof.Gen.KernelIdeal.Frame
import Idealize.ShloMosaic.Lib.Pipeline.Value
import Idealize.ShloMosaic.Lib.ValueIdx
import Idealize.ShloMosaic.Lib.StableHlo.Run

/-!
What the pipelined call finds in its six operand arrays, entry by entry, in terms of the program's
arguments. Before the call the program only re-lays its arguments out: the packed codes 32×1048576 are
reshaped to 4096×8192 (row `R`, column `k` is row `R div 128`, column `(R mod 128)·8192 + k`), the scale and
zero rows 1×1048576 to 128×8192 (row `r`, column `k` is column `r·8192 + k`), the activations are cast to a
narrower float format (no change over the extended reals), and the bias is cut into its two halves of
4096, each as a one-row matrix.
-/

noncomputable section

open Idealize.ShloMosaic Idealize.ShloMosaic.TcCoe Idealize.SL.Sem Idealize.ShloMosaic.ValueIdx

namespace Cert.KernelIdeal.Staging

open Cert.KernelIdeal Cert.KernelIdeal.Gen

variable (m : (ℓ : Loc nD τ sig) → Buf (Elt Ideal) ℓ)

/-- The activations, cast: unchanged over the extended reals. -/
theorem acts_apply (c : Dev nD) (b : Fin 64) (k : Fin 8192) :
    (V m c main_v3 : S64x8192.Idx → EReal) (ix2 b k) = (m ((c : Thread nD τ).loc main_arg0) : S64x8192.Idx → EReal) (ix2 b k) := by
  have e : (V m c main_v3 : S64x8192.Idx → EReal) = truncf (F := Ideal) .bf16 (m ((c : Thread nD τ).loc main_arg0)) bitsLt_bf16_f32 := by
    show StableHlo.after hostOps0 (fun b => m (c, b)) (Proc.devRef .tc main_v3) = _
    after_results
  rw [e]
  rfl

/-- The packed codes, reshaped to 4096 rows of 8192. -/
theorem codes_apply (c : Dev nD) (R : Fin 4096) (k : Fin 8192) :
    (V m c main_v0 : S4096x8192.Idx → BitVec 32) (ix2 R k)
      = (m ((c : Thread nD τ).loc main_arg1) : S32x1048576.Idx → BitVec 32)
          (ix2 (⟨R.val / 128, by have := R.isLt; omega⟩ : Fin 32) (⟨(R.val % 128) * 8192 + k.val, by have := k.isLt; omega⟩ : Fin 1048576)) := by
  have e : (V m c main_v0 : S4096x8192.Idx → BitVec 32) = shapeCast S4096x8192 (m ((c : Thread nD τ).loc main_arg1)) shapeCasts_S32x1048576_S4096x8192 := by
    show StableHlo.after hostOps0 (fun b => m (c, b)) (Proc.devRef .tc main_v0) = _
    after_results
    rfl
  rw [e]
  refine shapeCast_apply (s := S32x1048576) (t := S4096x8192) _ _ (ix2 R k) _ ?_
  show (S32x1048576.rowMajor _).val = (S4096x8192.rowMajor _).val
  rw [Shape.rowMajor_val_two, Shape.rowMajor_val_two]
  have := R.isLt; have := k.isLt
  show (R.val / 128) * 1048576 + ((R.val % 128) * 8192 + k.val) = R.val * 8192 + k.val
  omega

/-- The scale row, reshaped to 128 rows of 8192. -/
theorem scale_apply (c : Dev nD) (r : Fin 128) (k : Fin 8192) :
    (V m c main_v1 : S128x8192.Idx → EReal) (ix2 r k)
      = (m ((c : Thread nD τ).loc main_arg2) : S1x1048576.Idx → EReal)
          (ix2 (0 : Fin 1) (⟨r.val * 8192 + k.val, by have := r.isLt; have := k.isLt; omega⟩ : Fin 1048576)) := by
  have e : (V m c main_v1 : S128x8192.Idx → EReal) = shapeCast S128x8192 (m ((c : Thread nD τ).loc main_arg2)) shapeCasts_S1x1048576_S128x8192 := by
    show StableHlo.after hostOps0 (fun b => m (c, b)) (Proc.devRef .tc main_v1) = _
    after_results
    rfl
  rw [e]
  refine shapeCast_apply (s := S1x1048576) (t := S128x8192) _ _ (ix2 r k) _ ?_
  show (S1x1048576.rowMajor _).val = (S128x8192.rowMajor _).val
  rw [Shape.rowMajor_val_two, Shape.rowMajor_val_two]
  show 0 * 1048576 + (r.val * 8192 + k.val) = r.val * 8192 + k.val
  omega

/-- The zero-point row, reshaped to 128 rows of 8192. -/
theorem zero_apply (c : Dev nD) (r : Fin 128) (k : Fin 8192) :
    (V m c main_v2 : S128x8192.Idx → EReal) (ix2 r k)
      = (m ((c : Thread nD τ).loc main_arg3) : S1x1048576.Idx → EReal)
          (ix2 (0 : Fin 1) (⟨r.val * 8192 + k.val, by have := r.isLt; have := k.isLt; omega⟩ : Fin 1048576)) := by
  have e : (V m c main_v2 : S128x8192.Idx → EReal) = shapeCast S128x8192 (m ((c : Thread nD τ).loc main_arg3)) shapeCasts_S1x1048576_S128x8192 := by
    show StableHlo.after hostOps0 (fun b => m (c, b)) (Proc.devRef .tc main_v2) = _
    after_results
    rfl
  rw [e]
  refine shapeCast_apply (s := S1x1048576) (t := S128x8192) _ _ (ix2 r k) _ ?_
  show (S1x1048576.rowMajor _).val = (S128x8192.rowMajor _).val
  rw [Shape.rowMajor_val_two, Shape.rowMajor_val_two]
  show 0 * 1048576 + (r.val * 8192 + k.val) = r.val * 8192 + k.val
  omega

/-- The first half of the bias, as one row. -/
theorem bias_hi_apply (c : Dev nD) (o : Fin 4096) :
    (V m c main_v5 : S1x4096.Idx → EReal) (ix2 (0 : Fin 1) o)
      = (m ((c : Thread nD τ).loc main_arg4) : S8192.Idx → EReal) (ix1 (⟨o.val, by have := o.isLt; omega⟩ : Fin 8192)) := by
  have e : (V m c main_v5 : S1x4096.Idx → EReal)
      = shapeCast S1x4096 (extractStridedSlice S4096 ![0] (m ((c : Thread nD τ).loc main_arg4)) slices_S8192_S4096_0) shapeCasts_S4096_S1x4096 := by
    show StableHlo.after hostOps0 (fun b => m (c, b)) (Proc.devRef .tc main_v5) = _
    after_results
    rfl
  rw [e]
  refine (shapeCast_apply (s := S4096) (t := S1x4096) _ _ (ix2 (0 : Fin 1) o) (ix1 o) ?_).trans ?_
  · show (S4096.rowMajor _).val = (S1x4096.rowMajor _).val
    rw [Shape.rowMajor_val_one, Shape.rowMajor_val_two]
    show o.val = 0 * 4096 + o.val
    omega
  · exact extractStridedSlice_apply (s := S8192) (t := S4096) ![0] _ slices_S8192_S4096_0 (ix1 o) (ix1 (⟨o.val, by have := o.isLt; omega⟩ : Fin 8192)) (fun a => by
      match a with
      | ⟨0, _⟩ => show o.val = 0 + o.val; omega)

/-- The second half of the bias, as one row. -/
theorem bias_lo_apply (c : Dev nD) (o : Fin 4096) :
    (V m c main_v7 : S1x4096.Idx → EReal) (ix2 (0 : Fin 1) o)
      = (m ((c : Thread nD τ).loc main_arg4) : S8192.Idx → EReal) (ix1 (⟨4096 + o.val, by have := o.isLt; omega⟩ : Fin 8192)) := by
  have e : (V m c main_v7 : S1x4096.Idx → EReal)
      = shapeCast S1x4096 (extractStridedSlice S4096 ![4096] (m ((c : Thread nD τ).loc main_arg4)) slices_S8192_S4096_4096) shapeCasts_S4096_S1x4096 := by
    show StableHlo.after hostOps0 (fun b => m (c, b)) (Proc.devRef .tc main_v7) = _
    after_results
    rfl
  rw [e]
  refine (shapeCast_apply (s := S4096) (t := S1x4096) _ _ (ix2 (0 : Fin 1) o) (ix1 o) ?_).trans ?_
  · show (S4096.rowMajor _).val = (S1x4096.rowMajor _).val
    rw [Shape.rowMajor_val_one, Shape.rowMajor_val_two]
    show o.val = 0 * 4096 + o.val
    omega
  · exact extractStridedSlice_apply (s := S8192) (t := S4096) ![4096] _ slices_S8192_S4096_4096 (ix1 o) (ix1 (⟨4096 + o.val, by have := o.isLt; omega⟩ : Fin 8192)) (fun a => by
      match a with
      | ⟨0, _⟩ => rfl)

end Cert.KernelIdeal.Staging

end
-- ==== Proof.Blocks.lean ====
import proofs.«404370_j38534446579914_3_alg».proof.Proof.ChunkValue
import proofs.«404370_j38534446579914_3_alg».proof.Proof.Staging
import proofs.«404370_j38534446579914_3_alg».proof.Proof.Spec
import Idealize.ShloMosaic.Lib.Pipeline.Value
import Idealize.ShloMosaic.Lib.ValueIdx

/-!
From the grid's blocks to the two output arrays. Grid point `t` (of 32) reads rows `128·t … 128·t + 127`
of the reshaped codes, the whole activations, scales and zero points, and columns `128·t …` of each bias
half; it writes columns `128·t …` of both 64×4096 outputs. With the body's value per block and the
operand arrays' entries in terms of the arguments, block `t` of the first output is the specification at
output features `128·t + r` and block `t` of the second at `4096 + 128·t + r`; the 32 blocks tile each output.
-/

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.ChunkFold Cert.KernelIdeal.ChunkValue Cert.KernelIdeal.Staging
open Cert.PackedLinear

variable (m : (ℓ : Loc nD τ sig) → Buf (Elt Ideal) ℓ)

/-- The printed index maps, decided over the grid: which block of its array each window holds at point `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

theorem pt_lt (t : Fin cfg0.N) : t.val < 32 := Nat.lt_of_lt_of_eq t.isLt N_0

/-! ### The input blocks of a point -/

abbrev actsBlk (c : Dev nD) (t : Fin cfg0.N) : Vec Ideal S64x8192 .bf16 := iblk m c 0 t
abbrev codeBlk (c : Dev nD) (t : Fin cfg0.N) : Vec Ideal S128x8192 .i32 := iblk m c 1 t
abbrev scaleBlk (c : Dev nD) (t : Fin cfg0.N) : Vec Ideal S128x8192 .f32 := iblk m c 2 t
abbrev zeroBlk (c : Dev nD) (t : Fin cfg0.N) : Vec Ideal S128x8192 .f32 := iblk m c 3 t
abbrev biasHiBlk (c : Dev nD) (t : Fin cfg0.N) : Vec Ideal S1x128 .f32 := iblk m c 4 t
abbrev biasLoBlk (c : Dev nD) (t : Fin cfg0.N) : Vec Ideal S1x128 .f32 := iblk m c 5 t

theorem actsBlk_apply (c : Dev nD) (t : Fin cfg0.N) (b : Fin 64) (k : Fin 8192) :
    actsBlk m c t (ix2 b k) = (V m c main_v3 : S64x8192.Idx → EReal) (ix2 b k) := by
  obtain ⟨e00, e01, e10, e11, e20, e21, e30, e31, e40, e41, e50, e51, e60, e61, e70, e71⟩ := idx_facts t
  unfold actsBlk iblk
  rw [View.read_apply]
  show (V m c main_v3 : S64x8192.Idx → EReal) _ = (V m c main_v3 : S64x8192.Idx → EReal) _
  refine congrArg _ (funext fun a => Fin.ext ?_)
  match a with
  | ⟨0, _⟩ => show win0_0.index t (0 : Fin 2) * 64 + 1 * b.val = b.val; rw [e00]; omega
  | ⟨1, _⟩ => show win0_0.index t (1 : Fin 2) * 8192 + 1 * k.val = k.val; rw [e01]; omega

theorem codeBlk_apply (c : Dev nD) (t : Fin cfg0.N) (r : Fin 128) (k : Fin 8192) :
    codeBlk m c t (ix2 r k) = (V m c main_v0 : S4096x8192.Idx → BitVec 32)
      (ix2 (⟨128 * t.val + r.val, by have := pt_lt t; have := r.isLt; omega⟩ : Fin 4096) k) := by
  obtain ⟨e00, e01, e10, e11, e20, e21, e30, e31, e40, e41, e50, e51, e60, e61, e70, e71⟩ := idx_facts t
  unfold codeBlk iblk
  rw [View.read_apply]
  show (V m c main_v0 : S4096x8192.Idx → BitVec 32) _ = (V m c main_v0 : S4096x8192.Idx → BitVec 32) _
  refine congrArg _ (funext fun a => Fin.ext ?_)
  match a with
  | ⟨0, _⟩ => show win0_1.index t (0 : Fin 2) * 128 + 1 * r.val = 128 * t.val + r.val; rw [e10]; omega
  | ⟨1, _⟩ => show win0_1.index t (1 : Fin 2) * 8192 + 1 * k.val = k.val; rw [e11]; omega

theorem scaleBlk_apply (c : Dev nD) (t : Fin cfg0.N) (r : Fin 128) (k : Fin 8192) :
    scaleBlk m c t (ix2 r k) = (V m c main_v1 : S128x8192.Idx → EReal) (ix2 r k) := by
  obtain ⟨e00, e01, e10, e11, e20, e21, e30, e31, e40, e41, e50, e51, e60, e61, e70, e71⟩ := idx_facts t
  unfold scaleBlk iblk
  rw [View.read_apply]
  show (V m c main_v1 : S128x8192.Idx → EReal) _ = (V m c main_v1 : S128x8192.Idx → EReal) _
  refine congrArg _ (funext fun a => Fin.ext ?_)
  match a with
  | ⟨0, _⟩ => show win0_2.index t (0 : Fin 2) * 128 + 1 * r.val = r.val; rw [e20]; omega
  | ⟨1, _⟩ => show win0_2.index t (1 : Fin 2) * 8192 + 1 * k.val = k.val; rw [e21]; omega

theorem zeroBlk_apply (c : Dev nD) (t : Fin cfg0.N) (r : Fin 128) (k : Fin 8192) :
    zeroBlk m c t (ix2 r k) = (V m c main_v2 : S128x8192.Idx → EReal) (ix2 r k) := by
  obtain ⟨e00, e01, e10, e11, e20, e21, e30, e31, e40, e41, e50, e51, e60, e61, e70, e71⟩ := idx_facts t
  unfold zeroBlk iblk
  rw [View.read_apply]
  show (V m c main_v2 : S128x8192.Idx → EReal) _ = (V m c main_v2 : S128x8192.Idx → EReal) _
  refine congrArg _ (funext fun a => Fin.ext ?_)
  match a with
  | ⟨0, _⟩ => show win0_3.index t (0 : Fin 2) * 128 + 1 * r.val = r.val; rw [e30]; omega
  | ⟨1, _⟩ => show win0_3.index t (1 : Fin 2) * 8192 + 1 * k.val = k.val; rw [e31]; omega

theorem biasHiBlk_apply (c : Dev nD) (t : Fin cfg0.N) (r : Fin 128) :
    biasHiBlk m c t (ix2 (0 : Fin 1) r) = (V m c main_v5 : S1x4096.Idx → EReal)
      (ix2 (0 : Fin 1) (⟨128 * t.val + r.val, by have := pt_lt t; have := r.isLt; omega⟩ : Fin 4096)) := by
  obtain ⟨e00, e01, e10, e11, e20, e21, e30, e31, e40, e41, e50, e51, e60, e61, e70, e71⟩ := idx_facts t
  unfold biasHiBlk iblk
  rw [View.read_apply]
  show (V m c main_v5 : S1x4096.Idx → EReal) _ = (V m c main_v5 : S1x4096.Idx → EReal) _
  refine congrArg _ (funext fun a => Fin.ext ?_)
  match a with
  | ⟨0, _⟩ => show win0_4.index t (0 : Fin 2) * 1 + 1 * 0 = 0; rw [e40]
  | ⟨1, _⟩ => show win0_4.index t (1 : Fin 2) * 128 + 1 * r.val = 128 * t.val + r.val; rw [e41]; omega

theorem biasLoBlk_apply (c : Dev nD) (t : Fin cfg0.N) (r : Fin 128) :
    biasLoBlk m c t (ix2 (0 : Fin 1) r) = (V m c main_v7 : S1x4096.Idx → EReal)
      (ix2 (0 : Fin 1) (⟨128 * t.val + r.val, by have := pt_lt t; have := r.isLt; omega⟩ : Fin 4096)) := by
  obtain ⟨e00, e01, e10, e11, e20, e21, e30, e31, e40, e41, e50, e51, e60, e61, e70, e71⟩ := idx_facts t
  unfold biasLoBlk iblk
  rw [View.read_apply]
  show (V m c main_v7 : S1x4096.Idx → EReal) _ = (V m c main_v7 : S1x4096.Idx → EReal) _
  refine congrArg _ (funext fun a => Fin.ext ?_)
  match a with
  | ⟨0, _⟩ => show win0_5.index t (0 : Fin 2) * 1 + 1 * 0 = 0; rw [e50]
  | ⟨1, _⟩ => show win0_5.index t (1 : Fin 2) * 128 + 1 * r.val = 128 * t.val + r.val; rw [e51]; omega

/-! ### The two output arrays as functions of the arguments -/

/-- The first output array: the specification at output features `0 … 4095`. -/
def hiArr (c : Dev nD) : S64x4096.Idx → EReal := fun i =>
  result (m ((c : Thread nD τ).loc main_arg0)) (m ((c : Thread nD τ).loc main_arg1)) (m ((c : Thread nD τ).loc main_arg2)) (m ((c : Thread nD τ).loc main_arg3)) (m ((c : Thread nD τ).loc main_arg4)) (ix2 (i 0) (⟨(i 1).val, by have h : (i 1).val < 4096 := (i 1).isLt; show (i 1).val < 8192; omega⟩ : Fin 8192))

/-- The second output array: the specification at output features `4096 … 8191`. -/
def loArr (c : Dev nD) : S64x4096.Idx → EReal := fun i =>
  result (m ((c : Thread nD τ).loc main_arg0)) (m ((c : Thread nD τ).loc main_arg1)) (m ((c : Thread nD τ).loc main_arg2)) (m ((c : Thread nD τ).loc main_arg3)) (m ((c : Thread nD τ).loc main_arg4)) (ix2 (i 0) (⟨4096 + (i 1).val, by have h : (i 1).val < 4096 := (i 1).isLt; show 4096 + (i 1).val < 8192; omega⟩ : Fin 8192))

/-- Point `t`'s first output block, entry `(b, r)`: the specification at `(b, 128·t + r)`. -/
theorem point_hi (c : Dev nD) (t : Fin cfg0.N) (b : Fin 64) (r : Fin 128) :
    k0_pay3 (acc (actsBlk m c t) (codeBlk m c t) (scaleBlk m c t) (zeroBlk m c t) k0_t1_loop.trips) (biasHiBlk m c t) (ix2 b r)
      = hiArr m c (ix2 b (⟨128 * t.val + r.val, by have := pt_lt t; have := r.isLt; omega⟩ : Fin 4096)) := by
  have ht := pt_lt t
  have hr := r.isLt
  rw [block_hi]
  unfold hiArr result
  refine congrArg₂ (· + ·) (Finset.sum_congr rfl fun k _ => ?_) ?_
  · have hk := k.isLt
    unfold hiTerm weight code
    rw [actsBlk_apply, codeBlk_apply, scaleBlk_apply, zeroBlk_apply, acts_apply, codes_apply, scale_apply, zero_apply,
      if_pos (show 128 * t.val + r.val < 4096 by omega)]
    have e1 : (⟨(128 * t.val + r.val) / 128, by omega⟩ : Fin 32) = prow (⟨128 * t.val + r.val, by omega⟩ : Fin 8192) :=
      Fin.ext (by show (128 * t.val + r.val) / 128 = ((128 * t.val + r.val) / 128) % 32; omega)
    have e2 : (⟨((128 * t.val + r.val) % 128) * 8192 + k.val, by omega⟩ : Fin 1048576) = col (⟨128 * t.val + r.val, by omega⟩ : Fin 8192) k :=
      Fin.ext rfl
    have e3 : (⟨r.val * 8192 + k.val, by omega⟩ : Fin 1048576) = col (⟨128 * t.val + r.val, by omega⟩ : Fin 8192) k :=
      Fin.ext (by show r.val * 8192 + k.val = ((128 * t.val + r.val) % 128) * 8192 + k.val; omega)
    rw [e1, e2, e3]
  · rw [biasHiBlk_apply, bias_hi_apply]

/-- Point `t`'s second output block, entry `(b, r)`: the specification at `(b, 4096 + 128·t + r)`. -/
theorem point_lo (c : Dev nD) (t : Fin cfg0.N) (b : Fin 64) (r : Fin 128) :
    k0_pay4 (acc (actsBlk m c t) (codeBlk m c t) (scaleBlk m c t) (zeroBlk m c t) k0_t1_loop.trips) (biasLoBlk m c t) (ix2 b r)
      = loArr m c (ix2 b (⟨128 * t.val + r.val, by have := pt_lt t; have := r.isLt; omega⟩ : Fin 4096)) := by
  have ht := pt_lt t
  have hr := r.isLt
  rw [block_lo]
  unfold loArr result
  refine congrArg₂ (· + ·) (Finset.sum_congr rfl fun k _ => ?_) ?_
  · have hk := k.isLt
    unfold loTerm weight code
    rw [actsBlk_apply, codeBlk_apply, scaleBlk_apply, zeroBlk_apply, acts_apply, codes_apply, scale_apply, zero_apply,
      if_neg (show ¬ (4096 + (128 * t.val + r.val) < 4096) by omega)]
    have e1 : (⟨(128 * t.val + r.val) / 128, by omega⟩ : Fin 32) = prow (⟨4096 + (128 * t.val + r.val), by omega⟩ : Fin 8192) :=
      Fin.ext (by show (128 * t.val + r.val) / 128 = ((4096 + (128 * t.val + r.val)) / 128) % 32; omega)
    have e2 : (⟨((128 * t.val + r.val) % 128) * 8192 + k.val, by omega⟩ : Fin 1048576) = col (⟨4096 + (128 * t.val + r.val), by omega⟩ : Fin 8192) k :=
      Fin.ext (by show ((128 * t.val + r.val) % 128) * 8192 + k.val = ((4096 + (128 * t.val + r.val)) % 128) * 8192 + k.val; omega)
    have e3 : (⟨r.val * 8192 + k.val, by omega⟩ : Fin 1048576) = col (⟨4096 + (128 * t.val + r.val), by omega⟩ : Fin 8192) k :=
      Fin.ext (by show r.val * 8192 + k.val = ((4096 + (128 * t.val + r.val)) % 128) * 8192 + k.val; omega)
    rw [e1, e2, e3]
  · rw [biasLoBlk_apply, bias_lo_apply]

end Cert.KernelIdeal.Blocks

end
-- ==== Proof.Arrays.lean ====
import proofs.«404370_j38534446579914_3_alg».proof.Proof.Blocks
import Idealize.ShloMosaic.Lib.Pipeline.Value
import Idealize.ShloMosaic.Lib.ValueIdx
import Idealize.ShloMosaic.Lib.StableHlo.Run

/-!
The two output arrays after the pipelined call, and the program's result. Every grid point writes its
two blocks back; block `t` holds columns `128·t … 128·t + 127`, so column `o` is covered by point `o div 128`
and each output array ends at its half of the specification. After the call the program joins the two
arrays side by side: column `o` of the result is column `o` of the first for `o < 4096` and column
`o − 4096` of the second otherwise, which is the specification at `o` either way.
-/

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.ChunkFold Cert.KernelIdeal.Blocks
open Cert.PackedLinear

variable (m : (ℓ : Loc nD τ sig) → Buf (Elt Ideal) ℓ) (ρ : Dev nD → PrngReg)

/-- What point `t` writes back to the first output is block `t` of `hiArr`. -/
theorem flushed_hi (c : Dev nD) (t : Fin cfg0.N) :
    (dats m 0 c).flushed 6 t = ((cfg0.win 6).blk t).view.read (Elt Ideal) (hiArr m c) := by
  obtain ⟨e00, e01, e10, e11, e20, e21, e30, e31, e40, e41, e50, e51, e60, e61, e70, e71⟩ := idx_facts t
  show (cfg0.win 6).cut (grid0.coords t) ((dats m 0 c).after 6 t) = _
  rw [after0_6]
  unfold outsAt0
  dsimp only
  rw [out6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)]
  refine funext fun (j : S64x128.Idx) => ?_
  obtain ⟨b, r, rfl⟩ : ∃ (b : Fin 64) (r : Fin 128), j = ix2 b r := ⟨j 0, j 1, eq_ix2 j⟩
  show k0_pay3 (acc (actsBlk m c t) (codeBlk m c t) (scaleBlk m c t) (zeroBlk m c t) k0_t1_loop.trips) (biasHiBlk m c t) (ix2 b r)
    = hiArr m c (((cfg0.win 6).blk t).view.emb (ix2 b r))
  rw [point_hi]
  refine congrArg (hiArr m c) (funext fun a => Fin.ext ?_)
  match a with
  | ⟨0, _⟩ => show b.val = win0_6.index t (0 : Fin 2) * 64 + 1 * b.val; rw [e60]; omega
  | ⟨1, _⟩ => show 128 * t.val + r.val = win0_6.index t (1 : Fin 2) * 128 + 1 * r.val; rw [e61]; omega

/-- What point `t` writes back to the second output is block `t` of `loArr`. -/
theorem flushed_lo (c : Dev nD) (t : Fin cfg0.N) :
    (dats m 0 c).flushed 7 t = ((cfg0.win 7).blk t).view.read (Elt Ideal) (loArr m c) := by
  obtain ⟨e00, e01, e10, e11, e20, e21, e30, e31, e40, e41, e50, e51, e60, e61, e70, e71⟩ := idx_facts t
  show (cfg0.win 7).cut (grid0.coords t) ((dats m 0 c).after 7 t) = _
  rw [after0_7]
  unfold outsAt0
  dsimp only
  rw [out7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)]
  refine funext fun (j : S64x128.Idx) => ?_
  obtain ⟨b, r, rfl⟩ : ∃ (b : Fin 64) (r : Fin 128), j = ix2 b r := ⟨j 0, j 1, eq_ix2 j⟩
  show k0_pay4 (acc (actsBlk m c t) (codeBlk m c t) (scaleBlk m c t) (zeroBlk m c t) k0_t1_loop.trips) (biasLoBlk m c t) (ix2 b r)
    = loArr m c (((cfg0.win 7).blk t).view.emb (ix2 b r))
  rw [point_lo]
  refine congrArg (loArr m c) (funext fun a => Fin.ext ?_)
  match a with
  | ⟨0, _⟩ => show b.val = win0_7.index t (0 : Fin 2) * 64 + 1 * b.val; rw [e70]; omega
  | ⟨1, _⟩ => show 128 * t.val + r.val = win0_7.index t (1 : Fin 2) * 128 + 1 * r.val; rw [e71]; omega

/-- An index of the first output is in point `t`'s block iff each coordinate is in the block's range. -/
theorem mem_blk_hi (t : Fin cfg0.N) (i : S64x4096.Idx) :
    i ∈ ((cfg0.win 6).blk t).view.set ↔ ∀ a : Fin 2, win0_6.index t a * S64x128.size a ≤ (i a).val ∧ (i a).val < win0_6.index t a * S64x128.size a + S64x128.size a := by
  show i ∈ ((View.whole main_v8_0).slice (win0_6.rect t)).set ↔ _
  rw [View.set_slice_whole, Rect.mem_set_unit]
  exact Iff.rfl

theorem mem_blk_lo (t : Fin cfg0.N) (i : S64x4096.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v8_1).slice (win0_7.rect t)).set ↔ _
  rw [View.set_slice_whole, Rect.mem_set_unit]
  exact Iff.rfl

/-- The first output array after the call. -/
theorem final_hi (c : Dev nD) : (dats m 0 c).arrAt 6 cfg0.N = hiArr m c :=
  (dats m 0 c).arrAt_eq_of_cover 6 (hiArr m c) (fun t _ => flushed_hi m c t) fun (i : S64x4096.Idx) => by
    have h0 : (i 0).val < 64 := (i 0).isLt
    have h1 : (i 1).val < 4096 := (i 1).isLt
    have hN : cfg0.N = 32 := N_0
    refine ⟨⟨(i 1).val / 128, by rw [hN]; omega⟩, flush0_6 _, ?_⟩
    obtain ⟨e00, e01, e10, e11, e20, e21, e30, e31, e40, e41, e50, e51, e60, e61, e70, e71⟩ := idx_facts ⟨(i 1).val / 128, by rw [hN]; omega⟩
    rw [mem_blk_hi]
    intro a
    match a with
    | ⟨0, _⟩ =>
      show win0_6.index _ (0 : Fin 2) * 64 ≤ (i 0).val ∧ (i 0).val < win0_6.index _ (0 : Fin 2) * 64 + 64
      rw [e60]; omega
    | ⟨1, _⟩ =>
      show win0_6.index _ (1 : Fin 2) * 128 ≤ (i 1).val ∧ (i 1).val < win0_6.index _ (1 : Fin 2) * 128 + 128
      rw [e61]; show (i 1).val / 128 * 128 ≤ (i 1).val ∧ (i 1).val < (i 1).val / 128 * 128 + 128; omega

/-- The second output array after the call. -/
theorem final_lo (c : Dev nD) : (dats m 0 c).arrAt 7 cfg0.N = loArr m c :=
  (dats m 0 c).arrAt_eq_of_cover 7 (loArr m c) (fun t _ => flushed_lo m c t) fun (i : S64x4096.Idx) => by
    have h0 : (i 0).val < 64 := (i 0).isLt
    have h1 : (i 1).val < 4096 := (i 1).isLt
    have hN : cfg0.N = 32 := N_0
    refine ⟨⟨(i 1).val / 128, by rw [hN]; omega⟩, flush0_7 _, ?_⟩
    obtain ⟨e00, e01, e10, e11, e20, e21, e30, e31, e40, e41, e50, e51, e60, e61, e70, e71⟩ := idx_facts ⟨(i 1).val / 128, by rw [hN]; omega⟩
    rw [mem_blk_lo]
    intro a
    match a with
    | ⟨0, _⟩ =>
      show win0_7.index _ (0 : Fin 2) * 64 ≤ (i 0).val ∧ (i 0).val < win0_7.index _ (0 : Fin 2) * 64 + 64
      rw [e70]; omega
    | ⟨1, _⟩ =>
      show win0_7.index _ (1 : Fin 2) * 128 ≤ (i 1).val ∧ (i 1).val < win0_7.index _ (1 : Fin 2) * 128 + 128
      rw [e71]; show (i 1).val / 128 * 128 ≤ (i 1).val ∧ (i 1).val < (i 1).val / 128 * 128 + 128; omega

/-- The two halves joined side by side are the specification. -/
theorem joined (c : Dev nD) :
    concatenate S64x8192 1 [⟨S64x4096, hiArr m c⟩, ⟨S64x4096, loArr m c⟩] concatenates_S64x4096_S64x4096_S64x8192_d1
      = result (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, o, rfl⟩ : ∃ (b : Fin 64) (o : Fin 8192), i = ix2 b o := ⟨i 0, i 1, eq_ix2 i⟩
  have ho := o.isLt
  by_cases h : o.val < 4096
  · refine (concatenate_pair_apply_left _ _ _ concatenates_S64x4096_S64x4096_S64x8192_d1 (ix2 b o) rfl (ix2 b (⟨o.val, h⟩ : Fin 4096))
      (fun a => by match a with | ⟨0, _⟩ => rfl | ⟨1, _⟩ => rfl)).trans ?_
    rfl
  · refine (concatenate_pair_apply_right _ _ _ concatenates_S64x4096_S64x4096_S64x8192_d1 (ix2 b o) rfl rfl (ix2 b (⟨o.val - 4096, by omega⟩ : Fin 4096))
      (fun a ha => by match a with | ⟨0, _⟩ => rfl | ⟨1, _⟩ => exact absurd rfl ha)
      (by show o.val - 4096 + 4096 = o.val; omega)).trans ?_
    unfold loArr
    refine congrArg _ (funext fun a => Fin.ext ?_)
    match a with
    | ⟨0, _⟩ => rfl
    | ⟨1, _⟩ => show 4096 + (o.val - 4096) = o.val; omega

/-- The program's result buffer after the lines that follow the call: the specification of the arguments. -/
theorem tail_result (c : Dev nD) :
    Pipeline.afterTail₀ cfgs (dats m) 0 (V0 m) [hostOps1] c main_v9 = result (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v9) = _
  after_results
  rw [show Pipeline.withArrays _ c _ _ (Proc.devRef .tc main_v8_0) = _ from
      (Pipeline.withArrays_arr spec0 launch0.win.arr_inj c _ _ 6).trans (final_hi m c),
    show Pipeline.withArrays _ c _ _ (Proc.devRef .tc main_v8_1) = _ from
      (Pipeline.withArrays_arr spec0 launch0.win.arr_inj c _ _ 7).trans (final_lo m c)]
  exact joined m c

/-- The run of the idealised kernel program, read: the result buffer at the specification, the arguments kept. -/
theorem run : θ_run defs (onTc (τ := τ) (main (F := Ideal))) ⟨m, fun _ => 0, ρ⟩ fun r => ∀ c : Dev nD,
      r.2.mem ((c.tc : Thread nD τ).loc main_v9) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arrays

end
-- ==== Proof.RefSide.lean ====
import proofs.«404370_j38534446579914_3_alg».proof.Defs
import proofs.«404370_j38534446579914_3_alg».proof.Proof.Gen.ReferenceIdeal
import proofs.«404370_j38534446579914_3_alg».proof.Proof.Gen.ReferenceIdeal.Run
import proofs.«404370_j38534446579914_3_alg».proof.Proof.Gen.ReferenceIdeal.Read
import proofs.«404370_j38534446579914_3_alg».proof.Proof.Spec
import Idealize.ShloMosaic.Lib.Pipeline.Value
import Idealize.ShloMosaic.Lib.ValueIdx

/-!
The reference computes the specification. It unpacks both nibbles of every word, stacks the 32 rows of
high nibbles over the 32 rows of low nibbles, dequantises the 64×1048576 array against the broadcast
zero and scale rows, and reshapes it to 8192×8192: entry `(o, k)` of the reshaped array is entry
`(o div 128, (o mod 128)·8192 + k)` of the stacked one, whose row is a high-nibble row exactly when
`o < 4096`. The product with the activations (contracting the input features) plus the broadcast bias
is then the specification's sum, term by term.
-/

noncomputable section

open Idealize.ShloMosaic Idealize.ShloMosaic.TcCoe Idealize.SL.Sem Idealize.ShloMosaic.ValueIdx

namespace Cert.ReferenceIdeal.RefSide

open Cert.ReferenceIdeal Cert.ReferenceIdeal.Gen Cert.ReferenceIdeal.Read Cert.PackedLinear

/-- Entry `(k, o)` of the transposed dequantised matrix is the specification's weight `(o, k)`. -/
theorem entry_eq (x1 : (⟨S32x1048576, .i32⟩ : BufTy).Contents (Elt Ideal)) (x2 x3 : (⟨S1x1048576, .f32⟩ : BufTy).Contents (Elt Ideal))
    (o k : Fin 8192) : val_main_v12 (F := Ideal) x1 x2 x3 (ix2 k o) = weight x1 x2 x3 o k := by
  have hk := k.isLt
  have ho := o.isLt
  rw [val_main_v12_apply, val_main_v11_apply, val_main_v10_apply, val_main_v8_apply, val_main_v7_apply, val_main_v9_apply]
  have hJ0 : ((idx_main_v11 (idx_main_v12 (ix2 k o))) 0).val = o.val / 128 := by
    show (o.val * 8192 + k.val) / 1048576 = _; omega
  have hJ1 : ((idx_main_v11 (idx_main_v12 (ix2 k o))) 1).val = (o.val % 128) * 8192 + k.val := by
    show (o.val * 8192 + k.val) % 1048576 = _; omega
  have e7 : idx_main_v7 (idx_main_v11 (idx_main_v12 (ix2 k o))) = ix2 (0 : Fin 1) (col o k) := funext fun a => Fin.ext (by
    match a with
    | ⟨0, _⟩ => rfl
    | ⟨1, _⟩ => exact hJ1)
  have e9 : idx_main_v9 (idx_main_v11 (idx_main_v12 (ix2 k o))) = ix2 (0 : Fin 1) (col o k) := funext fun a => Fin.ext (by
    match a with
    | ⟨0, _⟩ => rfl
    | ⟨1, _⟩ => exact hJ1)
  rw [e7, e9]
  unfold weight
  show (val_main_v6 (F := Ideal) x1 (idx_main_v11 (idx_main_v12 (ix2 k o))) - x3 (ix2 (0 : Fin 1) (col o k))) * x2 (ix2 (0 : Fin 1) (col o k)) = _
  congr 2
  unfold val_main_v6 code
  by_cases h : o.val < 4096
  · rw [if_pos h]
    refine (concatenate_pair_apply_left _ _ _ concatenates_S32x1048576_S32x1048576_S64x1048576_d0 (idx_main_v11 (idx_main_v12 (ix2 k o))) rfl (ix2 (prow o) (col o k))
      (fun a => by match a with
        | ⟨0, _⟩ => exact (show (o.val / 128) % 32 = o.val / 128 by omega).trans hJ0.symm
        | ⟨1, _⟩ => exact hJ1.symm)).trans ?_
    rw [val_main_v2_apply, val_main_v1_apply, val_main_v0_apply, val_main_c_apply]
  · rw [if_neg h]
    refine (concatenate_pair_apply_right _ _ _ concatenates_S32x1048576_S32x1048576_S64x1048576_d0 (idx_main_v11 (idx_main_v12 (ix2 k o))) rfl rfl (ix2 (prow o) (col o k))
      (fun a ha => by match a with
        | ⟨0, _⟩ => exact absurd rfl ha
        | ⟨1, _⟩ => exact hJ1.symm)
      ((show (o.val / 128) % 32 + 32 = o.val / 128 by omega).trans hJ0.symm)).trans ?_
    rw [val_main_v5_apply, val_main_v4_apply, val_main_v3_apply, val_main_c_0_apply]

/-- The reference's result is the specification of its arguments. -/
theorem result_eq (x0 : (⟨S64x8192, .f32⟩ : BufTy).Contents (Elt Ideal)) (x1 : (⟨S32x1048576, .i32⟩ : BufTy).Contents (Elt Ideal))
    (x2 x3 : (⟨S1x1048576, .f32⟩ : BufTy).Contents (Elt Ideal)) (x4 : (⟨S8192, .f32⟩ : BufTy).Contents (Elt Ideal)) :
    val_main_v16 (F := Ideal) x0 x1 x2 x3 x4 = result x0 x1 x2 x3 x4 := by
  funext i
  obtain ⟨b, o, rfl⟩ : ∃ (b : Fin 64) (o : Fin 8192), i = ix2 b o := ⟨i 0, i 1, eq_ix2 i⟩
  rw [val_main_v16_apply, val_main_v13_apply, val_main_v15_apply, val_main_v14_apply]
  unfold result
  show (∑ k : Fin 8192, x0 (lidx_main_v13 (ix2 b o) k) * val_main_v12 (F := Ideal) x1 x2 x3 (ridx_main_v13 (ix2 b o) k))
      + x4 (idx_main_v14 (idx_main_v15 (ix2 b o))) = _
  congr 1
  · refine Finset.sum_congr rfl fun k _ => ?_
    have el : lidx_main_v13 (ix2 b o) k = ix2 b k := funext fun a => Fin.ext (by
      match a with
      | ⟨0, _⟩ => rfl
      | ⟨1, _⟩ => rfl)
    have er : ridx_main_v13 (ix2 b o) k = ix2 k o := funext fun a => Fin.ext (by
      match a with
      | ⟨0, _⟩ => rfl
      | ⟨1, _⟩ => rfl)
    rw [el, er, entry_eq]
  · refine congrArg x4 (funext fun a => Fin.ext ?_)
    match a with
    | ⟨0, _⟩ => rfl

end Cert.ReferenceIdeal.RefSide

end
-- ==== Proof.lean ====
/-
  A linear layer with 4-bit packed weights: the kernel against its plain reference, over the extended reals.

  Both programs compute, for a batch row `b` and an output feature `o`,

      Σₖ x (b, k) · (code (o, k) − zero (o, k)) · scale (o, k)  +  bias o,

  where the 8192×8192 codes are packed two to a word in a 32×1048576 array (the high nibbles give output
  features `0 … 4095`, the low nibbles `4096 … 8191`) and the zero points and scales are stored per column of
  that array (`Proof/Spec.lean`).

  The reference unpacks, stacks, dequantises and reshapes the whole array and multiplies once
  (`Proof/RefSide.lean`). The kernel walks a grid of 32 points; point `t` takes 128 packed rows, and in
  four chunks of 2048 input features accumulates the products against the high and the low nibbles side
  by side in one 64×256 accumulator, which it splits into a block of each of two 64×4096 outputs
  (`Proof/ChunkFold.lean`: the accumulator through the loop; `Proof/ChunkValue.lean`: its entries as sums;
  `Proof/Staging.lean`, `Proof/Blocks.lean`, `Proof/Arrays.lean`: from blocks to the two arrays, joined
  side by side after the call). The two sides differ only in how the sum over the 8192 input features is
  grouped, and addition of extended reals is associative and commutative, so no finiteness is used.
  Nothing is rewritten by the idealisation, so that conjunct is trivial; the three frames are the generated
  ones (the reference's is its generated run with the result dropped).
-/
import proofs.«404370_j38534446579914_3_alg».proof.Defs
import proofs.«404370_j38534446579914_3_alg».proof.Proof.Gen.Kernel
import proofs.«404370_j38534446579914_3_alg».proof.Proof.Gen.Kernel.Frame
import proofs.«404370_j38534446579914_3_alg».proof.Proof.Gen.KernelIdeal
import proofs.«404370_j38534446579914_3_alg».proof.Proof.Gen.KernelIdeal.Frame
import proofs.«404370_j38534446579914_3_alg».proof.Proof.Gen.ReferenceIdeal
import proofs.«404370_j38534446579914_3_alg».proof.Proof.Gen.ReferenceIdeal.Run
import proofs.«404370_j38534446579914_3_alg».proof.Proof.Gen.ReferenceIdeal.Read
import proofs.«404370_j38534446579914_3_alg».proof.Proof.Gen.Pre_finite_inputs
import proofs.«404370_j38534446579914_3_alg».proof.Proof.Arrays
import proofs.«404370_j38534446579914_3_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification of arguments that agree. -/
theorem algebraic : Cert.algebraic_KernelIdeal_ReferenceIdeal := by
  intro m ρ m' ρ' _ hagree
  refine ⟨fun c => Cert.PackedLinear.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefSide.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
